-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_arg1)) (v1 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_arg1) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg1) = v0 c
          ∧ r.2.mem ((c.tc : Thread Cert.ReferenceIdeal.nD Cert.ReferenceIdeal.τ).loc Cert.ReferenceIdeal.main_v20) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x6400000 : Shape := ⟨2, ![2, 6400000]⟩
abbrev S6400000 : Shape := ⟨1, ![6400000]⟩
abbrev S512x1 : Shape := ⟨2, ![512, 1]⟩
abbrev S1 : Shape := ⟨1, ![1]⟩
abbrev S_ : Shape := ⟨0, ![]⟩
abbrev S1x6400000 : Shape := ⟨2, ![1, 6400000]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S6400000 : S_.BroadcastsInDim S6400000 (![] : Fin 0 → Fin S6400000.rank)
  reducesTo_S6400000_S_d0 : S6400000.ReducesTo [0] S_
  bcast_S_S512x1 : S_.BroadcastsInDim S512x1 (![] : Fin 0 → Fin S512x1.rank)
  reducesTo_S512x1_S_d0_1 : S512x1.ReducesTo [0, 1] S_
  bcast_S_S1 : S_.BroadcastsInDim S1 (![] : Fin 0 → Fin S1.rank)
  reducesTo_S1_S_d0 : S1.ReducesTo [0] S_
  slices_S2x6400000_S1x6400000_1_0 : S2x6400000.Slices ![1, 0] S1x6400000
  shapeCasts_S1x6400000_S6400000 : S1x6400000.ShapeCasts S6400000

variable [Facts]

def fn_part1 {F : FTy → Type} [FloatOps F] (main_arg1 : IVec S2x6400000 32) (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  let main_v19 : IVec S1x6400000 32 := (extractStridedSlice S1x6400000 ![1, 0] · slices_S2x6400000_S1x6400000_1_0) main_arg1
  let main_v20 : IVec S6400000 32 := shapeCast S6400000 main_v19 shapeCasts_S1x6400000_S6400000
  let main_c_6 : IVec S_ 32 := constantI S_ 32 0#32
  let main_v21 : IVec S6400000 32 := broadcastInDim S6400000 ![] bcast_S_S6400000 main_c_6
  let main_v22 : IVec S6400000 1 := cmpi .sge main_v20 main_v21
  let main_c_7 : IVec S_ 1 := constantI S_ 1 1#1
  let main_v23 : IVec S_ 1 := (fun x v => Host.reduce IntOp.andi x v reducesTo_S6400000_S_d0 h_S_) main_v22 main_c_7
  let main_v24 : IVec S_ 1 := andi main_v18 main_v23
  main_v24

def fn {F : FTy → Type} [FloatOps F] (main_arg0 : FVec F S100000x512 .f32) (main_arg1 : IVec S2x6400000 32) (main_arg2 : FVec F S6400000 .f32) (main_arg3 : FVec F S512x1 .f32) (main_arg4 : FVec F S1 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S6400000 .f32 := Host.absf main_arg2
  let main_cst_0 : FVec F S_ .f32 := constant S_ .f32 0x7F800000#32
  let main_v5 : FVec F S6400000 .f32 := broadcastInDim S6400000 ![] bcast_S_S6400000 main_cst_0
  let main_v6 : IVec S6400000 1 := cmpf .olt main_v4 main_v5
  let main_c_1 : IVec S_ 1 := constantI S_ 1 1#1
  let main_v7 : IVec S_ 1 := (fun x v => Host.reduce IntOp.andi x v reducesTo_S6400000_S_d0 h_S_) main_v6 main_c_1
  let main_v8 : IVec S_ 1 := andi main_v3 main_v7
  let main_v9 : FVec F S512x1 .f32 := Host.absf main_arg3
  let main_cst_2 : FVec F S_ .f32 := constant S_ .f32 0x7F800000#32
  let main_v10 : FVec F S512x1 .f32 := broadcastInDim S512x1 ![] bcast_S_S512x1 main_cst_2
  let main_v11 : IVec S512x1 1 := cmpf .olt main_v9 main_v10
  let main_c_3 : IVec S_ 1 := constantI S_ 1 1#1
  let main_v12 : IVec S_ 1 := (fun x v => Host.reduce IntOp.andi x v reducesTo_S512x1_S_d0_1 h_S_) main_v11 main_c_3
  let main_v13 : IVec S_ 1 := andi main_v8 main_v12
  let main_v14 : FVec F S1 .f32 := Host.absf main_arg4
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_arg1 main_v13 main_v16
-- ==== Kernel.lean ====
abbrev S100000x512 : Shape := ⟨2, ![100000, 512]⟩
abbrev S2x6400000 : Shape := ⟨2, ![2, 6400000]⟩
abbrev S6400000 : Shape := ⟨1, ![6400000]⟩
abbrev S512x1 : Shape := ⟨2, ![512, 1]⟩
abbrev S1 : Shape := ⟨1, ![1]⟩
abbrev S_ : Shape := ⟨0, ![]⟩
abbrev S100352x512 : Shape := ⟨2, ![100352, 512]⟩
abbrev S1x1 : Shape := ⟨2, ![1, 1]⟩
abbrev S100352x1 : Shape := ⟨2, ![100352, 1]⟩
abbrev S2048x512 : Shape := ⟨2, ![2048, 512]⟩
abbrev S2048x1 : Shape := ⟨2, ![2048, 1]⟩
abbrev S100000x1 : Shape := ⟨2, ![100000, 1]⟩
abbrev S100000 : Shape := ⟨1, ![100000]⟩
abbrev S1x6400000 : Shape := ⟨2, ![1, 6400000]⟩
abbrev S6400000x1 : Shape := ⟨2, ![6400000, 1]⟩

abbrev nBuf : Space → Nat
  | .hbm => 17
  | .vmem => 6
  | .smem => 0
  | _ => 0

abbrev bufTy : (tb : Table) → Fin (tcTables nBuf tb) → BufTy
  | .hbm, ⟨0, _⟩ => ⟨S100000x512, .f32⟩
  | .hbm, ⟨1, _⟩ => ⟨S2x6400000, .i32⟩
  | .hbm, ⟨2, _⟩ => ⟨S6400000, .f32⟩
  | .hbm, ⟨3, _⟩ => ⟨S512x1, .f32⟩
  | .hbm, ⟨4, _⟩ => ⟨S1, .f32⟩
  | .hbm, ⟨5, _⟩ => ⟨S_, .i32⟩
  | .hbm, ⟨6, _⟩ => ⟨S_, .f32⟩
  | .hbm, ⟨7, _⟩ => ⟨S100352x512, .f32⟩
  | .hbm, ⟨8, _⟩ => ⟨S1x1, .f32⟩
  | .hbm, ⟨9, _⟩ => ⟨S100352x1, .f32⟩
  | .hbm, ⟨10, _⟩ => ⟨S100000x1, .f32⟩
  | .hbm, ⟨11, _⟩ => ⟨S100000, .f32⟩
  | .hbm, ⟨12, _⟩ => ⟨S1x6400000, .i32⟩
  | .hbm, ⟨13, _⟩ => ⟨S6400000, .i32⟩
  | .hbm, ⟨14, _⟩ => ⟨S6400000x1, .i32⟩
  | .hbm, ⟨15, _⟩ => ⟨S6400000, .f32⟩
  | .hbm, ⟨16, _⟩ => ⟨S6400000, .f32⟩
  | .local _ .vmem, ⟨0, _⟩ => ⟨S2048x512, .f32⟩
  | .local _ .vmem, ⟨1, _⟩ => ⟨S2048x512, .f32⟩
  | .local _ .vmem, ⟨2, _⟩ => ⟨S512x1, .f32⟩
  | .local _ .vmem, ⟨3, _⟩ => ⟨S1x1, .f32⟩
  | .local _ .vmem, ⟨4, _⟩ => ⟨S2048x1, .f32⟩
  | .local _ .vmem, ⟨5, _⟩ => ⟨S2048x1, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_call1_v0 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![49], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  pads_S100000x512_S100352x512_03520_000 : S100000x512.Pads (![0, 0] : Fin 2 → Nat) ![352, 0] ![0, 0] S100352x512
  h_S_ : 0 < S_.numel
  shapeCasts_S1_S1x1 : S1.ShapeCasts S1x1
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S512x1_S512x1_0_0 : ∀ a, (![0, 0] : Fin 2 → Nat) a + S512x1.size a ≤ S512x1.size a
  h_S512x1 : 0 < S512x1.numel
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S2048x1_S2048x1_0_0 : ∀ a, (![0, 0] : Fin 2 → Nat) a + S2048x1.size a ≤ S2048x1.size a
  h_S2048x1 : 0 < S2048x1.numel
  slices_S100352x1_S100000x1_0_0 : S100352x1.Slices ![0, 0] S100000x1
  shapeCasts_S100000x1_S100000 : S100000x1.ShapeCasts S100000
  slices_S2x6400000_S1x6400000_1_0 : S2x6400000.Slices ![1, 0] S1x6400000
  shapeCasts_S1x6400000_S6400000 : S1x6400000.ShapeCasts S6400000
  bcast_S6400000_S6400000x1_0 : S6400000.BroadcastsInDim S6400000x1 (![0] : Fin 1 → Fin S6400000x1.rank)
  dot_S2048x512_S512x1_S2048x1_1_0_0_1_n_n_wf : DotDims.WF S2048x512 S512x1 S2048x1 [1] [0] [0] [1] [] []
  gather_S100000_S6400000x1_S6400000_n_0_n_n_0_1_1_wf : GatherDims.WF S100000 S6400000x1 S6400000 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S100352x512.size a
  hwx0_0 : ∀ i : grid0.Coords, EltTy.bits .f32 = 32 ∨ (Rect.block (s := S100352x512) S2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S512x1.size a
  hwx0_1 : ∀ i : grid0.Coords, EltTy.bits .f32 = 32 ∨ (Rect.block (s := S512x1) S512x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1.size a ≤ S100352x1.size a
  hwx0_3 : ∀ i : grid0.Coords, EltTy.bits .f32 = 32 ∨ (Rect.block (s := S100352x1) S2048x1.size (cc0_transform_3 i) (hinb0_3 i)).WholeWords (EltTy.packing .f32)

variable [Facts₀]

def dot_S2048x512_S512x1_S2048x1_1_0_0_1_n_n : DotDims S2048x512 S512x1 S2048x1 where
  lhsContracting := [1]
  rhsContracting := [0]
  lhsNonContracting := [0]
  rhsNonContracting := [1]
  lhsBatch := []
  rhsBatch := []
  wf := dot_S2048x512_S512x1_S2048x1_1_0_0_1_n_n_wf
def gather_S100000_S6400000x1_S6400000_n_0_n_n_0_1_1 : GatherDims S100000 S6400000x1 S6400000 where
  offsetDims := []
  collapsedSliceDims := [0]
  operandBatchingDims := []
  startIndicesBatchingDims := []
  startIndexMap := [0]
  indexVectorDim := 1
  sliceSizes := ![1]
  wf := gather_S100000_S6400000x1_S6400000_n_0_n_n_0_1_1_wf

abbrev win0_0 : Pipeline.Window sig grid0 :=
  Pipeline.Window.ofSpec (Memref.whole main_v0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S512x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S2048x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S100000x512 : Shape := ⟨2, ![100000, 512]⟩
abbrev S2x6400000 : Shape := ⟨2, ![2, 6400000]⟩
abbrev S6400000 : Shape := ⟨1, ![6400000]⟩
abbrev S512x1 : Shape := ⟨2, ![512, 1]⟩
abbrev S1 : Shape := ⟨1, ![1]⟩
abbrev S100000x1 : Shape := ⟨2, ![100000, 1]⟩
abbrev S1x1 : Shape := ⟨2, ![1, 1]⟩
abbrev S_ : Shape := ⟨0, ![]⟩
abbrev S100000 : Shape := ⟨1, ![100000]⟩
abbrev S1x6400000 : Shape := ⟨2, ![1, 6400000]⟩
abbrev S6400000x1 : Shape := ⟨2, ![6400000, 1]⟩

abbrev nBuf : Space → Nat
  | .hbm => 30
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S2x6400000, .i32⟩
  | .hbm, ⟨2, _⟩ => ⟨S6400000, .f32⟩
  | .hbm, ⟨3, _⟩ => ⟨S512x1, .f32⟩
  | .hbm, ⟨4, _⟩ => ⟨S1, .f32⟩
  | .hbm, ⟨5, _⟩ => ⟨S100000x1, .f32⟩
  | .hbm, ⟨6, _⟩ => ⟨S1x1, .f32⟩
  | .hbm, ⟨7, _⟩ => ⟨S100000x1, .f32⟩
  | .hbm, ⟨8, _⟩ => ⟨S100000x1, .f32⟩
  | .hbm, ⟨9, _⟩ => ⟨S100000x1, .f32⟩
  | .hbm, ⟨10, _⟩ => ⟨S100000x1, .f32⟩
  | .hbm, ⟨11, _⟩ => ⟨S_, .f32⟩
  | .hbm, ⟨12, _⟩ => ⟨S100000x1, .f32⟩
  | .hbm, ⟨13, _⟩ => ⟨S100000x1, .f32⟩
  | .hbm, ⟨14, _⟩ => ⟨S_, .f32⟩
  | .hbm, ⟨15, _⟩ => ⟨S100000x1, .f32⟩
  | .hbm, ⟨16, _⟩ => ⟨S100000x1, .f32⟩
  | .hbm, ⟨17, _⟩ => ⟨S100000, .f32⟩
  | .hbm, ⟨18, _⟩ => ⟨S1x6400000, .i32⟩
  | .hbm, ⟨19, _⟩ => ⟨S6400000, .i32⟩
  | .hbm, ⟨20, _⟩ => ⟨S_, .i32⟩
  | .hbm, ⟨21, _⟩ => ⟨S6400000, .i32⟩
  | .hbm, ⟨22, _⟩ => ⟨S6400000, .i1⟩
  | .hbm, ⟨23, _⟩ => ⟨S_, .i32⟩
  | .hbm, ⟨24, _⟩ => ⟨S6400000, .i32⟩
  | .hbm, ⟨25, _⟩ => ⟨S6400000, .i32⟩
  | .hbm, ⟨26, _⟩ => ⟨S6400000, .i32⟩
  | .hbm, ⟨27, _⟩ => ⟨S6400000x1, .i32⟩
  | .hbm, ⟨28, _⟩ => ⟨S6400000, .f32⟩
  | .hbm, ⟨29, _⟩ => ⟨S6400000, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c : Ref sig .tc := ⟨.hbm, 20, rfl⟩
abbrev main_v13 : Ref sig .tc := ⟨.hbm, 21, rfl⟩
abbrev main_v14 : Ref sig .tc := ⟨.hbm, 22, rfl⟩
abbrev main_c_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]

class Facts₀ : Prop where
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  bcast_S_S100000x1 : S_.BroadcastsInDim S100000x1 (![] : Fin 0 → Fin S100000x1.rank)
  shapeCasts_S100000x1_S100000 : S100000x1.ShapeCasts S100000
  slices_S2x6400000_S1x6400000_1_0 : S2x6400000.Slices ![1, 0] S1x6400000
  shapeCasts_S1x6400000_S6400000 : S1x6400000.ShapeCasts S6400000
  bcast_S_S6400000 : S_.BroadcastsInDim S6400000 (![] : Fin 0 → Fin S6400000.rank)
  bcast_S6400000_S6400000x1_0 : S6400000.BroadcastsInDim S6400000x1 (![0] : Fin 1 → Fin S6400000x1.rank)
  dot_S100000x512_S512x1_S100000x1_1_0_0_1_n_n_wf : DotDims.WF S100000x512 S512x1 S100000x1 [1] [0] [0] [1] [] []
  gather_S100000_S6400000x1_S6400000_n_0_n_n_0_1_1_wf : GatherDims.WF S100000 S6400000x1 S6400000 [] [0] [] [0] [] 1 ![1]

variable [Facts₀]

def dot_S100000x512_S512x1_S100000x1_1_0_0_1_n_n : DotDims S100000x512 S512x1 S100000x1 where
  lhsContracting := [1]
  rhsContracting := [0]
  lhsNonContracting := [0]
  rhsNonContracting := [1]
  lhsBatch := []
  rhsBatch := []
  wf := dot_S100000x512_S512x1_S100000x1_1_0_0_1_n_n_wf
def gather_S100000_S6400000x1_S6400000_n_0_n_n_0_1_1 : GatherDims S100000 S6400000x1 S6400000 where
  offsetDims := []
  collapsedSliceDims := [0]
  operandBatchingDims := []
  startIndicesBatchingDims := []
  startIndexMap := [0]
  indexVectorDim := 1
  sliceSizes := ![1]
  wf := gather_S100000_S6400000x1_S6400000_n_0_n_n_0_1_1_wf

class Facts : Prop extends Facts₀ where

variable [Facts]
-- ==== Proof.GateSpec.lean ====
/-
  The node gate, as mathematics on the extended reals.

  A node with feature row `x : Fin 512 → EReal` is gated by `σ(⟨x, p⟩ + b)`, where `p` is the projection
  column, `b` the bias and `σ z = 1 / (1 + e^{-z})`.  Both programs compute this number for every node: the
  kernel by a matrix product of a block of rows with `p` followed by the logistic operation, the reference by
  the whole matrix product followed by negate, exponential, `1 + ·` and `1 / ·`.  On the extended reals the
  logistic operation IS that expansion, so nothing about finiteness is needed.

  Each edge `e` then scales its attribute by the gate of its column node `j = edge_index[1, e]`.  The kernel
  reads the gate vector at `j` clamped into range; the reference first adds the number of nodes to a negative
  `j`.  For `j ≥ 0` that wrap never fires, which is the one word fact stated here.
-/
import Idealize.ShloMosaic.PureOps.Ideal
import Idealize.ShloMosaic.Lib.IdealHost

noncomputable section

open scoped BigOperators

namespace Cert.NodeGate

open Idealize.ShloMosaic

/-- The gate of one node: the logistic function of the inner product of its feature row with the projection
    column, plus the bias. -/
def gate (x p : Fin 512 → EReal) (b : EReal) : EReal := Ideal.logistic ((∑ k : Fin 512, x k * p k) + b)

/-- The gate vector of a graph: at node `i` the gate of feature row `i`. -/
def gateVec (x : (⟨2, ![100000, 512]⟩ : Shape).Idx → EReal) (p : (⟨2, ![512, 1]⟩ : Shape).Idx → EReal)
    (b : (⟨1, ![1]⟩ : Shape).Idx → EReal) : (⟨1, ![100000]⟩ : Shape).Idx → EReal :=
  fun i => gate (fun k => x (ValueIdx.ix2 (⟨(i 0).val, (i 0).isLt⟩ : Fin 100000) k)) (fun k => p (ValueIdx.ix2 k (0 : Fin 1)))
    (b (ValueIdx.ix1 (0 : Fin 1)))

/-- The expanded sigmoid `1 / (1 + e^{-z})`, with both ones written as the f32 pattern of one, is the logistic
    function: by the latter's definition once the pattern is read as the number one. -/
theorem expanded_sigmoid (z : EReal) :
    Ideal.div (Ideal.ofBits .f32 0x3F800000#32) (Ideal.ofBits .f32 0x3F800000#32 + Ideal.exp (-z)) = Ideal.logistic z := by
  rw [Ideal.ofBits_one_f32]
  rfl

/-- A signed 32-bit index that is not negative is left alone by "add `n` if negative". -/
theorem wrap_of_nonneg (j n : BitVec 32) (h : IntOp.cmpi .sge j 0#32 = 1#1) :
    Scalar.select (IntOp.cmpi .slt j 0#32) (IntOp.addi j n) j = j := by
  have hs : IntOp.cmpi .slt j 0#32 = 0#1 := by
    unfold IntOp.cmpi at h ⊢
    simp only [BitVec.sle, BitVec.slt] at h ⊢
    have h' : (0#32).toInt ≤ j.toInt := by
      by_contra hc
      rw [decide_eq_false hc] at h
      exact absurd h (by decide)
    rw [decide_eq_false (by omega)]
    rfl
  rw [hs]
  exact if_neg (by decide)

end Cert.NodeGate

end
-- ==== Proof.GateBlock.lean ====
/-
  One block of the kernel, read at a row.

  At a grid point the body holds a block of 2048 feature rows, the projection column and the 1×1 bias.  It forms
  the 2048×1 matrix product of the block with the column into a zero accumulator, adds the bias to every row and
  applies the logistic operation.  Read at row `r`, the product is the sum over the 512 features of
  `block[r, k] · column[k, 0]`, so the stored value at `(r, 0)` is the gate of row `r`.
-/
import proofs.«426492_j25744033972451_3_alg».proof.Proof.Gen.KernelIdeal.Skeleton
import proofs.«426492_j25744033972451_3_alg».proof.Proof.GateSpec
import Idealize.ShloMosaic.Lib.ValueIdx
import Idealize.ShloMosaic.Lib.Pipeline.Value
import Idealize.ShloMosaic.PureOps.Ideal.Laws

noncomputable section

open scoped BigOperators

namespace Cert.KernelIdeal.GateBlock

open Cert.KernelIdeal Cert.KernelIdeal.Gen Idealize.ShloMosaic Idealize.ShloMosaic.ValueIdx

/-- The product's left operand index at output row `i` and contraction index `q` has the output's row … -/
theorem lhs_blk_0 (i : S2048x1.Idx) (q : dot_S2048x512_S512x1_S2048x1_1_0_0_1_n_n.contr.Idx) :
    (dot_S2048x512_S512x1_S2048x1_1_0_0_1_n_n.lhsIdx i q 0).val = (i 0).val := by
  unfold DotDims.lhsIdx
  rw [dif_neg (show ¬(0 : Fin S2048x512.rank) ∈ dot_S2048x512_S512x1_S2048x1_1_0_0_1_n_n.lhsBatch by decide), dif_pos (show (0 : Fin S2048x512.rank) ∈ dot_S2048x512_S512x1_S2048x1_1_0_0_1_n_n.lhsNonContracting by decide)]
  rfl
/-- … and the contracted feature as its column; -/
theorem lhs_blk_1 (i : S2048x1.Idx) (q : dot_S2048x512_S512x1_S2048x1_1_0_0_1_n_n.contr.Idx) :
    (dot_S2048x512_S512x1_S2048x1_1_0_0_1_n_n.lhsIdx i q 1).val = (q ⟨0, by decide⟩).val :=
  dot_S2048x512_S512x1_S2048x1_1_0_0_1_n_n.lhsIdx_val_of_single rfl i q
/-- the right operand index has the contracted feature as its row … -/
theorem rhs_blk_0 (i : S2048x1.Idx) (q : dot_S2048x512_S512x1_S2048x1_1_0_0_1_n_n.contr.Idx) :
    (dot_S2048x512_S512x1_S2048x1_1_0_0_1_n_n.rhsIdx i q 0).val = (q ⟨0, by decide⟩).val :=
  dot_S2048x512_S512x1_S2048x1_1_0_0_1_n_n.rhsIdx_val_of_single rfl i q
/-- … and the output's column. -/
theorem rhs_blk_1 (i : S2048x1.Idx) (q : dot_S2048x512_S512x1_S2048x1_1_0_0_1_n_n.contr.Idx) :
    (dot_S2048x512_S512x1_S2048x1_1_0_0_1_n_n.rhsIdx i q 1).val = (i 1).val := by
  unfold DotDims.rhsIdx
  rw [dif_neg (show ¬(1 : Fin S512x1.rank) ∈ dot_S2048x512_S512x1_S2048x1_1_0_0_1_n_n.rhsBatch by decide), dif_pos (show (1 : Fin S512x1.rank) ∈ dot_S2048x512_S512x1_S2048x1_1_0_0_1_n_n.rhsNonContracting by decide)]
  rfl

/-- What the body stores at row `r` of its block is the gate of that row. -/
theorem pay_row (x0 : Vec Ideal S2048x512 .f32) (x1 : Vec Ideal S512x1 .f32) (x2 : Vec Ideal S1x1 .f32) (r : Fin 2048) :
    k0_pay1 (F := Ideal) x0 x1 x2 (ix2 r (0 : Fin 1))
      = Cert.NodeGate.gate (fun k => x0 (ix2 r k)) (fun k => x1 (ix2 k (0 : Fin 1))) (x2 (ix2 (0 : Fin 1) (0 : Fin 1))) := by
  unfold k0_pay1 Cert.NodeGate.gate
  show Ideal.logistic ((FloatOps.matmul (F := Ideal) dot_S2048x512_S512x1_S2048x1_1_0_0_1_n_n none (shapeCast S2048x512 x0 shapeCasts_S2048x512_S2048x512) x1
      (constant (F := Ideal) S2048x1 .f32 0x00000000#32) (ix2 r (0 : Fin 1)) : EReal) + (extractAt ![0, 0] x2 inpos_S1x1_p0_0 : EReal)) = _
  rw [shapeCast_self, Ideal.matmul_constant_zero_apply,
    ← Equiv.sum_comp (contrEquiv1 dot_S2048x512_S512x1_S2048x1_1_0_0_1_n_n 512 rfl rfl).symm]
  congr 1
  congr 1
  · refine Finset.sum_congr rfl fun k _ => ?_
    have hk := contrEquiv1_symm_val dot_S2048x512_S512x1_S2048x1_1_0_0_1_n_n 512 rfl rfl k
    have el : dot_S2048x512_S512x1_S2048x1_1_0_0_1_n_n.lhsIdx (ix2 r (0 : Fin 1)) ((contrEquiv1 dot_S2048x512_S512x1_S2048x1_1_0_0_1_n_n 512 rfl rfl).symm k) = ix2 r k := funext fun a => Fin.ext (by
      match a with
      | ⟨0, _⟩ => exact lhs_blk_0 _ _
      | ⟨1, _⟩ => exact (lhs_blk_1 _ _).trans hk)
    have er : dot_S2048x512_S512x1_S2048x1_1_0_0_1_n_n.rhsIdx (ix2 r (0 : Fin 1)) ((contrEquiv1 dot_S2048x512_S512x1_S2048x1_1_0_0_1_n_n 512 rfl rfl).symm k) = ix2 k (0 : Fin 1) := funext fun a => Fin.ext (by
      match a with
      | ⟨0, _⟩ => exact (rhs_blk_0 _ _).trans hk
      | ⟨1, _⟩ => exact rhs_blk_1 _ _)
    rw [el, er]
  · unfold extractAt
    congr 1
    funext a
    match a with
    | ⟨0, _⟩ => rfl
    | ⟨1, _⟩ => rfl

end Cert.KernelIdeal.GateBlock

end
-- ==== Proof.GateArray.lean ====
/-
  The gate column the region leaves behind.

  The region walks 49 grid points; point `t` stages rows `2048 t … 2048 t + 2047` of the (padded) feature
  array, the whole projection column and the 1×1 bias, and writes back rows `2048 t … 2048 t + 2047` of a
  100352×1 output.  By the block lemma the value written at row `r` of the block is the gate of that row, and row
  `r` of block `t` is row `2048 t + r` of the array.  The 49 blocks tile the 100352 rows (row `i` lies in
  block `i / 2048`), so after the region the output holds, at every row `i`, the gate of row `i` of the padded
  feature array.
-/
import proofs.«426492_j25744033972451_3_alg».proof.Proof.Gen.KernelIdeal.Frame
import proofs.«426492_j25744033972451_3_alg».proof.Proof.GateBlock
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.GateArray

open Cert.KernelIdeal Cert.KernelIdeal.Gen Idealize.ShloMosaic.ValueIdx

variable (m : (ℓ : Loc nD τ sig) → Buf (Elt Ideal) ℓ) (ρ : Dev nD → PrngReg)

theorem hz : (![0, 0] : Fin 2 → Nat) = fun _ => 0 := funext fun a => by fin_cases a <;> rfl

/-- The three arrays the region stages, as it finds them, at their literal shapes: the padded features, the
    projection column, the 1×1 bias. -/
abbrev xpad (c : Dev nD) : S100352x512.Idx → EReal := V m c main_v0
abbrev pcol (c : Dev nD) : S512x1.Idx → EReal := V m c main_arg3
abbrev bias (c : Dev nD) : S1x1.Idx → EReal := V m c main_v1

/-- Their blocks at a grid point, at their literal shapes. -/
abbrev xblk (c : Dev nD) (t : Fin cfg0.N) : S2048x512.Idx → EReal := iblk m c 0 t
abbrev pblk (c : Dev nD) (t : Fin cfg0.N) : S512x1.Idx → EReal := iblk m c 1 t
abbrev bblk (c : Dev nD) (t : Fin cfg0.N) : S1x1.Idx → EReal := iblk m c 2 t

/-- The printed index maps over the grid: the feature and output windows are at block row `t`, column block 0; the
    projection and the bias are always at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row `r` of the feature block at point `t` is row `2048 t + r` of the padded feature array. -/
theorem xblk_apply (c : Dev nD) (t : Fin cfg0.N) (r : Fin 2048) (k : Fin 512) (R : Fin 100352) (hR : R.val = 2048 * t.val + r.val) :
    xblk m c t (ix2 r k) = xpad m c (ix2 R k) := by
  obtain ⟨e0, e1, -⟩ := idx_facts t
  show iblk m c 0 t (ix2 r k) = V m c main_v0 (ix2 R k)
  unfold iblk
  rw [View.read_apply]
  show V m c main_v0 _ = V m c main_v0 _
  congr 1
  funext a
  apply Fin.ext
  match a with
  | ⟨0, _⟩ => show win0_0.index t (0 : Fin 2) * 2048 + 1 * r.val = R.val; rw [e0, hR]; omega
  | ⟨1, _⟩ => show win0_0.index t (1 : Fin 2) * 512 + 1 * k.val = k.val; rw [e1]; omega

/-- The projection's block at any point is the whole column. -/
theorem pblk_apply (c : Dev nD) (t : Fin cfg0.N) (k : Fin 512) :
    pblk m c t (ix2 k (0 : Fin 1)) = pcol m c (ix2 k (0 : Fin 1)) := by
  obtain ⟨-, -, e0, e1, -⟩ := idx_facts t
  show iblk m c 1 t (ix2 k (0 : Fin 1)) = V m c main_arg3 (ix2 k (0 : Fin 1))
  unfold iblk
  rw [View.read_apply]
  show V m c main_arg3 _ = V m c main_arg3 _
  congr 1
  funext a
  apply Fin.ext
  match a with
  | ⟨0, _⟩ => show win0_1.index t (0 : Fin 2) * 512 + 1 * k.val = k.val; rw [e0]; omega
  | ⟨1, _⟩ => show win0_1.index t (1 : Fin 2) * 1 + 1 * 0 = 0; rw [e1]

/-- The bias's block at any point is the bias. -/
theorem bblk_apply (c : Dev nD) (t : Fin cfg0.N) :
    bblk m c t (ix2 (0 : Fin 1) (0 : Fin 1)) = bias m c (ix2 (0 : Fin 1) (0 : Fin 1)) := by
  obtain ⟨-, -, -, -, e0, e1, -⟩ := idx_facts t
  show iblk m c 2 t (ix2 (0 : Fin 1) (0 : Fin 1)) = V m c main_v1 (ix2 (0 : Fin 1) (0 : Fin 1))
  unfold iblk
  rw [View.read_apply]
  show V m c main_v1 _ = V m c main_v1 _
  congr 1
  funext a
  apply Fin.ext
  match a with
  | ⟨0, _⟩ => show win0_2.index t (0 : Fin 2) * 1 + 1 * 0 = 0; rw [e0]
  | ⟨1, _⟩ => show win0_2.index t (1 : Fin 2) * 1 + 1 * 0 = 0; rw [e1]

/-- The gate column of a 100352-row feature array: at row `i` the gate of that row. -/
def gateCol (X : S100352x512.Idx → EReal) (P : S512x1.Idx → EReal) (B : S1x1.Idx → EReal) : S100352x1.Idx → EReal :=
  fun i => Cert.NodeGate.gate (fun k => X (ix2 (⟨(i 0).val, idx2_lt0 i⟩ : Fin 100352) k)) (fun k => P (ix2 k (0 : Fin 1)))
    (B (ix2 (0 : Fin 1) (0 : Fin 1)))

/-- What point `t` writes back is block `t` of the gate column of the arrays as the region finds them. -/
theorem flushed_eq (c : Dev nD) (t : Fin cfg0.N) :
    (dats m 0 c).flushed 3 t = ((cfg0.win 3).blk t).view.read (Elt Ideal) (gateCol (xpad m c) (pcol m c) (bias m c)) := by
  show (cfg0.win 3).cut (grid0.coords t) ((dats m 0 c).after 3 t) = _
  rw [after0_3]
  unfold out0_3
  rw [View.canon_unit_zero hz]
  simp only [View.ld_unit_zero (S := S2048x512) hz, View.ld_unit_zero (S := S512x1) hz, View.ld_unit_zero (S := S1x1) hz]
  obtain ⟨-, -, -, -, -, -, e0, e1⟩ := idx_facts t
  funext j
  obtain ⟨r, q, rfl⟩ : ∃ (r : Fin 2048) (q : Fin 1), j = ix2 r q := ⟨j 0, j 1, eq_ix2 j⟩
  obtain rfl : q = 0 := Subsingleton.elim _ _
  show k0_pay1 (F := Ideal) (xblk m c t) (pblk m c t) (bblk m c t) (ix2 r (0 : Fin 1))
    = gateCol (xpad m c) (pcol m c) (bias m c) (((cfg0.win 3).blk t).view.emb (ix2 r (0 : Fin 1)))
  refine (GateBlock.pay_row (xblk m c t) (pblk m c t) (bblk m c t) r).trans ?_
  unfold gateCol
  have hrow : ((((cfg0.win 3).blk t).view.emb (ix2 r (0 : Fin 1))) 0).val = 2048 * t.val + r.val := by
    show win0_3.index t (0 : Fin 2) * 2048 + 1 * r.val = _
    rw [e0]; omega
  have h1 : (fun k : Fin 512 => xblk m c t (ix2 r k))
      = fun k : Fin 512 => xpad m c (ix2 (⟨((((cfg0.win 3).blk t).view.emb (ix2 r (0 : Fin 1))) 0).val, idx2_lt0 _⟩ : Fin 100352) k) :=
    funext fun k => xblk_apply m c t r k _ hrow
  have h2 : (fun k : Fin 512 => pblk m c t (ix2 k (0 : Fin 1))) = fun k : Fin 512 => pcol m c (ix2 k (0 : Fin 1)) :=
    funext fun k => pblk_apply m c t k
  rw [h1, h2, bblk_apply m c t]

/-- An index of the output array is in point `t`'s block iff each coordinate is in the block's range. -/
theorem mem_blk (t : Fin cfg0.N) (i : S100352x1.Idx) :
    i ∈ ((cfg0.win 3).blk t).view.set ↔ ∀ a : Fin 2, win0_3.index t a * S2048x1.size a ≤ (i a).val ∧ (i a).val < win0_3.index t a * S2048x1.size a + S2048x1.size a := by
  show i ∈ ((View.whole main_v2).slice (win0_3.rect t)).set ↔ _
  rw [View.set_slice_whole, Rect.mem_set_unit]
  exact Iff.rfl

/-- Every row of the output lies in the block of point `row / 2048`. -/
theorem cover (i : S100352x1.Idx) :
    ∃ t : Fin cfg0.N, (cfg0.win 3).flush t = true ∧ i ∈ ((cfg0.win 3).blk t).view.set := by
  have hi0 : (i 0).val < 100352 := idx2_lt0 i
  have hi1 : (i 1).val < 1 := idx2_lt1 i
  have hN : cfg0.N = 49 := N_0
  let t : Fin cfg0.N := ⟨(i 0).val / 2048, by rw [hN]; omega⟩
  obtain ⟨-, -, -, -, -, -, e0, e1⟩ := idx_facts t
  refine ⟨t, flush0_3 t, ?_⟩
  rw [mem_blk]
  intro a
  have ht : t.val = (i 0).val / 2048 := rfl
  match a with
  | ⟨0, _⟩ => show win0_3.index t (0 : Fin 2) * 2048 ≤ (i 0).val ∧ (i 0).val < win0_3.index t (0 : Fin 2) * 2048 + 2048; rw [e0]; omega
  | ⟨1, _⟩ => show win0_3.index t (1 : Fin 2) * 1 ≤ (i 1).val ∧ (i 1).val < win0_3.index t (1 : Fin 2) * 1 + 1; rw [e1]; omega

/-- The output array after the region is the gate column of the padded features, the projection and the bias. -/
theorem final (c : Dev nD) : (dats m 0 c).arrAt 3 cfg0.N = gateCol (xpad m c) (pcol m c) (bias m c) :=
  (dats m 0 c).arrAt_eq_of_cover 3 (gateCol (xpad m c) (pcol m c) (bias m c)) (fun t _ => flushed_eq m c t) (cover)

end Cert.KernelIdeal.GateArray

end
-- ==== Proof.HostGlue.lean ====
/-
  The host operations around the region.

  Before the region the features are padded by 352 zero rows (to 100352 = 49 · 2048 rows) and the bias is reshaped
  to 1×1: below row 100000 the padded array is the feature array, and the 1×1 bias is the bias.  After the region
  the first 100000 rows of the output column are flattened into the gate vector, row 1 of the edge index is
  flattened into the column indices, the gate vector is gathered at them and the edge attributes are multiplied by
  the gathered gates.
-/
import proofs.«426492_j25744033972451_3_alg».proof.Proof.Gen.KernelIdeal.Frame
import Idealize.ShloMosaic.Lib.StableHlo.Run
import Idealize.ShloMosaic.Lib.KernelVsHost
import Idealize.ShloMosaic.Lib.Pipeline.Value
import Idealize.ShloMosaic.Lib.ValueIdx

set_option maxRecDepth 16384

noncomputable section

open Idealize.ShloMosaic Idealize.ShloMosaic.TcCoe Idealize.SL.Sem
open Idealize.ShloMosaic.Pipeline (Dat)

namespace Cert.KernelIdeal.HostGlue

open Cert.KernelIdeal Cert.KernelIdeal.Gen Idealize.ShloMosaic.ValueIdx Idealize.ShloMosaic.StableHlo

variable (m : (ℓ : Loc nD τ sig) → Buf (Elt Ideal) ℓ)

/-- The padded feature array the region stages is the feature array padded below with 352 rows. -/
theorem xpad_eq (c : Dev nD) : (V m c main_v0 : S100352x512.Idx → EReal)
    = pad S100352x512 ![0, 0] ![352, 0] ![0, 0] (m ((c : Thread nD τ).loc main_arg0)) (sitofp (F := Ideal) .f32 (constantI S_ 32 0#32))
        pads_S100000x512_S100352x512_03520_000 h_S_ := by
  dsimp only [Gen.V, Gen.V0]
  simp only [Gen.hostOps0, Gen.hostOps0_1, Gen.hostOps0_2, List.flatten_cons, List.flatten_nil, List.append_nil, List.cons_append,
    List.nil_append]
  after_results
  rfl

/-- Below row 100000 the padded array is the feature array. -/
theorem xpad_row (c : Dev nD) (R : Fin 100352) (hR : R.val < 100000) (k : Fin 512) :
    (V m c main_v0 : S100352x512.Idx → EReal) (ix2 R k)
      = (m ((c : Thread nD τ).loc main_arg0) : S100000x512.Idx → EReal) (ix2 (⟨R.val, hR⟩ : Fin 100000) k) := by
  rw [xpad_eq]
  exact pad_apply_of_inside _ _ _ _ _ _ _ (ix2 R k) (ix2 (⟨R.val, hR⟩ : Fin 100000) k) (fun a => match a with
    | ⟨0, _⟩ => by show R.val = 0 + R.val * (0 + 1); omega
    | ⟨1, _⟩ => by show k.val = 0 + k.val * (0 + 1); omega)

/-- The 1×1 bias the region stages is the bias. -/
theorem bias_eq (c : Dev nD) : (V m c main_v1 : S1x1.Idx → EReal) (ix2 (0 : Fin 1) (0 : Fin 1))
    = (m ((c : Thread nD τ).loc main_arg4) : S1.Idx → EReal) (ix1 (0 : Fin 1)) := by
  have e : (V m c main_v1 : S1x1.Idx → EReal) = shapeCast S1x1 (m ((c : Thread nD τ).loc main_arg4)) shapeCasts_S1_S1x1 := by
    dsimp only [Gen.V, Gen.V0]
    simp only [Gen.hostOps0, Gen.hostOps0_1, Gen.hostOps0_2, List.flatten_cons, List.flatten_nil, List.append_nil, List.cons_append,
      List.nil_append]
    after_results
    rfl
  rw [e]
  exact shapeCast_apply _ shapeCasts_S1_S1x1 (ix2 (0 : Fin 1) (0 : Fin 1)) (ix1 (0 : Fin 1))
    (by rw [Shape.rowMajor_val_two, Shape.rowMajor_val_one]; rfl)

/-- The operations after the region as one function of the output column `G`, the edge index `J` and the edge
    attributes `A`: `A` times the gate vector — the first 100000 rows of `G`, flattened — gathered at row 1 of `J`. -/
def tail (G : S100352x1.Idx → EReal) (J : S2x6400000.Idx → BitVec 32) (A : S6400000.Idx → EReal) : S6400000.Idx → EReal :=
  mulf (F := Ideal) (φ := .f32) A
    (Host.gather gather_S100000_S6400000x1_S6400000_n_0_n_n_0_1_1
      (shapeCast S100000 (extractStridedSlice S100000x1 ![0, 0] G slices_S100352x1_S100000x1_0_0) shapeCasts_S100000x1_S100000)
      (broadcastInDim S6400000x1 ![0] bcast_S6400000_S6400000x1_0
        (shapeCast S6400000 (extractStridedSlice S1x6400000 ![1, 0] J slices_S2x6400000_S1x6400000_1_0) shapeCasts_S1x6400000_S6400000)))

/-- The program's second result after the run is that function of the region's output array and of the edge
    index and edge attributes as launched. -/
theorem tail_eq (c : Dev nD) :
    (Pipeline.afterTail₀ cfgs (dats m) 0 (V0 m) [hostOps1, hostOps1_1, hostOps1_2] c main_v8 : S6400000.Idx → EReal)
      = tail ((dats m 0 c).arrAt 3 cfg0.N) (m ((c : Thread nD τ).loc main_arg1)) (m ((c : Thread nD τ).loc main_arg2)) := by
  unfold Pipeline.afterTail₀ tail
  simp only [hostOps1, hostOps1_1, hostOps1_2, List.flatten_cons, List.flatten_nil, List.append_nil, List.cons_append,
    List.nil_append]
  after_results
  have hA : Pipeline.withArrays (cfgs 0).spec c (V0 m c) (fun w => (dats m 0 c).arrAt w (cfgs 0).N) (Proc.devRef .tc main_arg2)
      = m ((c : Thread nD τ).loc main_arg2) :=
    (Pipeline.withArrays_of_ne _ c (V0 m c) _ main_arg2 (by exact (by decide : ∀ w, Pipeline.arrRef spec0 w ≠ main_arg2))).trans
      (V_main_arg2 m c)
  have hJ : Pipeline.withArrays (cfgs 0).spec c (V0 m c) (fun w => (dats m 0 c).arrAt w (cfgs 0).N) (Proc.devRef .tc main_arg1)
      = m ((c : Thread nD τ).loc main_arg1) :=
    (Pipeline.withArrays_of_ne _ c (V0 m c) _ main_arg1 (by exact (by decide : ∀ w, Pipeline.arrRef spec0 w ≠ main_arg1))).trans
      (V_main_arg1 m c)
  have hG : Pipeline.withArrays (cfgs 0).spec c (V0 m c) (fun w => (dats m 0 c).arrAt w (cfgs 0).N) (Proc.devRef .tc main_v2)
      = (dats m 0 c).arrAt 3 cfg0.N :=
    Pipeline.withArrays_arr spec0 launch0.win.arr_inj c _ _ 3
  rw [hA, hJ, hG]
  rfl

end Cert.KernelIdeal.HostGlue

end
-- ==== Proof.EdgeValue.lean ====
/-
  The kernel's result.

  After the region the output column holds the gate of every row of the padded feature array; its first 100000
  rows, flattened, are therefore the gate vector of the feature array itself (the padding rows lie beyond row
  100000 and are sliced off).  The program's second result is the edge attributes times that vector gathered at
  row 1 of the edge index; every argument array ends as launched.
-/
import proofs.«426492_j25744033972451_3_alg».proof.Proof.GateArray
import proofs.«426492_j25744033972451_3_alg».proof.Proof.HostGlue

set_option maxRecDepth 16384

noncomputable section

open Idealize.ShloMosaic Idealize.ShloMosaic.TcCoe Idealize.SL.Sem
open Idealize.ShloMosaic.Pipeline (Dat)

namespace Cert.KernelIdeal.EdgeValue

open Cert.KernelIdeal Cert.KernelIdeal.Gen Idealize.ShloMosaic.ValueIdx

variable (m : (ℓ : Loc nD τ sig) → Buf (Elt Ideal) ℓ) (ρ : Dev nD → PrngReg)

/-- The first 100000 rows of the region's output column, flattened, are the gate vector of the feature array. -/
theorem gateVec_eq (c : Dev nD) :
    shapeCast S100000 (extractStridedSlice S100000x1 ![0, 0] ((dats m 0 c).arrAt 3 cfg0.N) slices_S100352x1_S100000x1_0_0) shapeCasts_S100000x1_S100000
      = Cert.NodeGate.gateVec (m ((c : Thread nD τ).loc main_arg0)) (m ((c : Thread nD τ).loc main_arg3)) (m ((c : Thread nD τ).loc main_arg4)) := by
  rw [GateArray.final]
  funext i
  have hi : (i 0).val < 100000 := (i 0).isLt
  rw [shapeCast_apply _ shapeCasts_S100000x1_S100000 i (ix2 (⟨(i 0).val, hi⟩ : Fin 100000) (0 : Fin 1))
      (by rw [Shape.rowMajor_val_two, Shape.rowMajor_val_one]; show (i 0).val * 1 + 0 = (i 0).val; omega),
    extractStridedSlice_apply ![0, 0] _ slices_S100352x1_S100000x1_0_0 (ix2 (⟨(i 0).val, hi⟩ : Fin 100000) (0 : Fin 1))
      (ix2 (⟨(i 0).val, by omega⟩ : Fin 100352) (0 : Fin 1)) (fun a => match a with
        | ⟨0, _⟩ => by show (i 0).val = 0 + (i 0).val; omega
        | ⟨1, _⟩ => by show 0 = 0 + 0; rfl)]
  unfold GateArray.gateCol Cert.NodeGate.gateVec
  have h1 : (fun k : Fin 512 => GateArray.xpad m c (ix2 (⟨((ix2 (⟨(i 0).val, by omega⟩ : Fin 100352) (0 : Fin 1) : S100352x1.Idx) 0).val, idx2_lt0 _⟩ : Fin 100352) k))
      = fun k : Fin 512 => (m ((c : Thread nD τ).loc main_arg0) : S100000x512.Idx → EReal) (ix2 (⟨(i 0).val, (i 0).isLt⟩ : Fin 100000) k) :=
    funext fun k => HostGlue.xpad_row m c _ hi k
  have h2 : (fun k : Fin 512 => GateArray.pcol m c (ix2 k (0 : Fin 1)))
      = fun k : Fin 512 => (m ((c : Thread nD τ).loc main_arg3) : S512x1.Idx → EReal) (ix2 k (0 : Fin 1)) :=
    funext fun k => congrFun (V_main_arg3 m c) _
  rw [h1, h2]
  exact congrArg (Cert.NodeGate.gate _ _) (HostGlue.bias_eq m c)

/-- The program's second result as one function of the argument arrays: the edge attributes times the gate vector
    gathered at row 1 of the edge index. -/
def edgeScale (x0 : S100000x512.Idx → EReal) (x1 : S2x6400000.Idx → BitVec 32) (x2 : S6400000.Idx → EReal)
    (x3 : S512x1.Idx → EReal) (x4 : S1.Idx → EReal) : S6400000.Idx → EReal :=
  mulf (F := Ideal) (φ := .f32) x2
    (Host.gather gather_S100000_S6400000x1_S6400000_n_0_n_n_0_1_1 (Cert.NodeGate.gateVec x0 x3 x4)
      (broadcastInDim S6400000x1 ![0] bcast_S6400000_S6400000x1_0
        (shapeCast S6400000 (extractStridedSlice S1x6400000 ![1, 0] x1 slices_S2x6400000_S1x6400000_1_0) shapeCasts_S1x6400000_S6400000)))

/-- The run, read: the second result at that function of the arguments, every argument array as launched. -/
theorem run : θ_run defs (onTc (τ := τ) (main (F := Ideal))) ⟨m, fun _ => 0, ρ⟩ fun r => ∀ c : Dev nD,
      r.2.mem ((c.tc : Thread nD τ).loc main_v8)
        = edgeScale (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v8 (Pipeline.mem_restRefs_of main_v8 (by decide) (by decide))).trans
        ((HostGlue.tail_eq m c).trans (by unfold HostGlue.tail edgeScale; rw [gateVec_eq m c])),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      ((h c).1 1).trans (((dats m 0 c).arrAt_in 1 rfl _).trans ((A_eq m c 1).trans (V_main_arg3 m c))),
      (((h c).2 main_arg4 (Pipeline.mem_restRefs_of main_arg4 (by decide) (by decide))).trans (W_main_arg4 m (dats m) c))⟩)
    (run_main m ρ)

end Cert.KernelIdeal.EdgeValue

end
-- ==== Proof.RefGate.lean ====
/-
  The reference, read at a node and at an edge.

  The reference forms the whole 100000×1 matrix product of the features with the projection column, adds the bias
  (broadcast from one number), and applies negate, exponential, `1 + ·`, `1 / ·`; flattened, entry `i` is the
  gate of feature row `i`.  Its column indices are row 1 of the edge index, flattened, with the number of nodes
  added where an index is negative; where no index is negative they are row 1 of the edge index itself.
-/
import proofs.«426492_j25744033972451_3_alg».proof.Proof.Gen.ReferenceIdeal.Read
import proofs.«426492_j25744033972451_3_alg».proof.Proof.GateSpec

noncomputable section

open scoped BigOperators

namespace Cert.ReferenceIdeal.RefGate

open Cert.ReferenceIdeal Cert.ReferenceIdeal.Gen Cert.ReferenceIdeal.Read Idealize.ShloMosaic Idealize.ShloMosaic.ValueIdx

/-- The reference's gate vector is the gate vector. -/
theorem gateVec_eq (x0 : S100000x512.Idx → EReal) (x3 : S512x1.Idx → EReal) (x4 : S1.Idx → EReal) :
    val_main_v10 (F := Ideal) x0 x3 x4 = Cert.NodeGate.gateVec x0 x3 x4 := by
  funext i
  rw [val_main_v10_apply, val_main_v9_apply, val_main_v8_apply, val_main_cst_0_apply, val_main_v7_apply, val_main_v6_apply,
    val_main_cst_apply, val_main_v5_apply, val_main_v4_apply, val_main_v3_apply, val_main_v0_apply, val_main_v2_apply,
    val_main_v1_apply]
  simp only [Ideal.hostDivf_def, Ideal.addf_def, Ideal.hostUnary_exp_def, Ideal.hostNegf_def, Ideal.negf_def, Ideal.ofBits_def]
  rw [Cert.NodeGate.expanded_sigmoid]
  unfold Cert.NodeGate.gateVec Cert.NodeGate.gate
  have el : ∀ k : Fin 512, lidx_main_v0 (idx_main_v10 i) k = ix2 (⟨(i 0).val, (i 0).isLt⟩ : Fin 100000) k := fun k =>
    funext fun a => Fin.ext (by
      match a with
      | ⟨0, _⟩ => exact Nat.div_one _
      | ⟨1, _⟩ => rfl)
  have er : ∀ k : Fin 512, ridx_main_v0 (idx_main_v10 i) k = ix2 k (0 : Fin 1) := fun k =>
    funext fun a => Fin.ext (by
      match a with
      | ⟨0, _⟩ => rfl
      | ⟨1, _⟩ => rfl)
  have eb : idx_main_v1 (idx_main_v2 (idx_main_v10 i)) = ix1 (0 : Fin 1) :=
    funext fun a => Fin.ext (by
      match a with
      | ⟨0, _⟩ => rfl)
  simp only [el, er, eb]

/-- Where row 1 of the edge index has no negative entry, the reference's column indices are that row. -/
theorem colIdx_eq_of_nonneg {F : FTy → Type} [FloatOps F] (x1 : S2x6400000.Idx → BitVec 32)
    (h : ∀ e : S6400000.Idx, IntOp.cmpi .sge (val_main_v12 (F := F) x1 e) 0#32 = 1#1) :
    val_main_v17 (F := F) x1 = val_main_v12 (F := F) x1 := by
  funext e
  rw [val_main_v17_apply, val_main_v14_apply, val_main_v16_apply, val_main_v13_apply, val_main_c_apply, val_main_v15_apply,
    val_main_c_1_apply]
  exact Cert.NodeGate.wrap_of_nonneg _ _ (h e)

end Cert.ReferenceIdeal.RefGate

end
-- ==== Proof.IndexDomain.lean ====
/-
  The index domain, read off the precondition.

  The precondition ends with "every entry of row 1 of the edge index is at least 0": the row is sliced out and
  flattened, compared with a broadcast 0 by signed ≥, and the comparisons are reduced by `and`, which is in turn
  conjoined with the finiteness conjuncts.  When the whole predicate is 1, the last reduction is 1, so every
  single comparison is 1.
-/
import proofs.«426492_j25744033972451_3_alg».proof.Pre_finite_inputs
import Idealize.ShloMosaic.Lib.ReduceAll
import Idealize.ShloMosaic.Lib.ValueIdx

noncomputable section

namespace Cert.Pre_finite_inputs.IndexDomain

open Cert.Pre_finite_inputs Cert.Pre_finite_inputs.Facts Idealize.ShloMosaic Idealize.ShloMosaic.ValueIdx

variable [Facts]

instance : Subsingleton S_.Idx := ⟨fun a b => funext fun d => d.elim0⟩

/-- Under the precondition every column index — row 1 of the edge index, flattened — is a non-negative signed
    word. -/
theorem nonneg_of_pre {F : FTy → Type} [FloatOps F] (a0 : FVec F S100000x512 .f32) (a1 : IVec S2x6400000 32)
    (a2 : FVec F S6400000 .f32) (a3 : FVec F S512x1 .f32) (a4 : FVec F S1 .f32)
    (h : fn (F := F) a0 a1 a2 a3 a4 = fun _ => 1#1) (e : S6400000.Idx) :
    IntOp.cmpi .sge
      (shapeCast S6400000 (extractStridedSlice S1x6400000 ![1, 0] a1 slices_S2x6400000_S1x6400000_1_0) shapeCasts_S1x6400000_S6400000 e)
      0#32 = 1#1 := by
  have h0 := congrFun h ix0
  dsimp only [fn, fn_part1] at h0
  have h1 := (IntOp.andi_eq_one.mp h0).2
  exact Host.reduce_andi_all _ _ _ _ ix0 h1 e

end Cert.Pre_finite_inputs.IndexDomain

end
-- ==== Proof.lean ====
/-
  Node gating followed by edge scaling: `out[e] = edge_attr[e] · σ(x[j_e] · p + b)` with `j_e = edge_index[1, e]`.

  Both programs return the edge index unchanged and, for every edge, its attribute times the gate of its column
  node.  On the extended reals the gate `σ(⟨x_i, p⟩ + b)` is one number however it is computed: the kernel's
  block-wise matrix product into a zero accumulator and the reference's whole matrix product are the same sum over
  the 512 features, and the logistic operation is its own expansion `1 / (1 + e^{-z})`; the kernel's padding rows
  are never read back.  So the two gate vectors are equal with no appeal to finiteness.

  The programs differ only in how a column index outside `[0, 100000)` is read.  Both clamp into range when they
  gather, but the reference first adds 100000 to a negative index.  For an index that is not negative that step does
  nothing, the two index arrays coincide, and the gathers — the same operation of the same operands — agree.  That
  is the one place where the precondition is used: its last conjunct says that row 1 of the edge index has no
  negative entry.

  The three frames are the generated ones (the reference's from its generated run); the idealized kernel is the
  kernel's own text read over the extended reals, so `preserves` has nothing to state.
-/
import proofs.«426492_j25744033972451_3_alg».proof.Defs
import proofs.«426492_j25744033972451_3_alg».proof.Proof.Gen.Kernel
import proofs.«426492_j25744033972451_3_alg».proof.Proof.Gen.Kernel.Skeleton
import proofs.«426492_j25744033972451_3_alg».proof.Proof.Gen.Kernel.Launch
import proofs.«426492_j25744033972451_3_alg».proof.Proof.Gen.Kernel.Points
import proofs.«426492_j25744033972451_3_alg».proof.Proof.Gen.Kernel.Frame
import proofs.«426492_j25744033972451_3_alg».proof.Proof.Gen.KernelIdeal
import proofs.«426492_j25744033972451_3_alg».proof.Proof.Gen.KernelIdeal.Skeleton
import proofs.«426492_j25744033972451_3_alg».proof.Proof.Gen.KernelIdeal.Launch
import proofs.«426492_j25744033972451_3_alg».proof.Proof.Gen.KernelIdeal.Points
import proofs.«426492_j25744033972451_3_alg».proof.Proof.Gen.KernelIdeal.Frame
import proofs.«426492_j25744033972451_3_alg».proof.Proof.Gen.ReferenceIdeal
import proofs.«426492_j25744033972451_3_alg».proof.Proof.Gen.Pre_finite_inputs
import proofs.«426492_j25744033972451_3_alg».proof.Proof.Gen.ReferenceIdeal.Run
import proofs.«426492_j25744033972451_3_alg».proof.Proof.Gen.ReferenceIdeal.Read
import proofs.«426492_j25744033972451_3_alg».proof.Proof.EdgeValue
import proofs.«426492_j25744033972451_3_alg».proof.Proof.RefGate
import proofs.«426492_j25744033972451_3_alg».proof.Proof.IndexDomain
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- The reference's second result is the kernel's function of the arguments, where row 1 of the edge index has no
    negative entry: the gate vectors agree outright, the column indices agree because the negative-index wrap never
    fires, and the gather and the product are the same operations on both sides. -/
theorem reference_result (x0 : Cert.ReferenceIdeal.S100000x512.Idx → EReal) (x1 : Cert.ReferenceIdeal.S2x6400000.Idx → BitVec 32)
    (x2 : Cert.ReferenceIdeal.S6400000.Idx → EReal) (x3 : Cert.ReferenceIdeal.S512x1.Idx → EReal) (x4 : Cert.ReferenceIdeal.S1.Idx → EReal)
    (h : ∀ e : Cert.ReferenceIdeal.S6400000.Idx, IntOp.cmpi .sge (Cert.ReferenceIdeal.Read.val_main_v12 (F := Ideal) x1 e) 0#32 = 1#1) :
    Cert.ReferenceIdeal.Read.val_main_v20 (F := Ideal) x0 x1 x2 x3 x4 = Cert.KernelIdeal.EdgeValue.edgeScale x0 x1 x2 x3 x4 := by
  unfold Cert.ReferenceIdeal.Read.val_main_v20 Cert.ReferenceIdeal.Read.val_main_v19 Cert.ReferenceIdeal.Read.val_main_v18
  rw [Cert.ReferenceIdeal.RefGate.gateVec_eq, Cert.ReferenceIdeal.RefGate.colIdx_eq_of_nonneg x1 h]
  rfl

theorem algebraic : Cert.algebraic_KernelIdeal_ReferenceIdeal := by
  intro m ρ m' ρ' hpre hagree
  refine ⟨fun c => m ((c.tc : Thread Cert.KernelIdeal.nD Cert.KernelIdeal.τ).loc Cert.KernelIdeal.main_arg1),
    fun c => Cert.KernelIdeal.EdgeValue.edgeScale
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · refine (θ_run Cert.KernelIdeal.defs _ _).mono (fun _ h c => ?_) (Cert.KernelIdeal.EdgeValue.run m ρ)
    exact ⟨(h c).2.2.1, (h c).1, (h c).2⟩
  · refine (θ_run Cert.ReferenceIdeal.defs _ _).mono (fun _ h c => ?_) (Cert.ReferenceIdeal.Value.run (F := Ideal) m' ρ')
    obtain ⟨a0, a1, a2, a3, a4⟩ := hagree c
    refine ⟨(h c).1.trans a1, ?_, (h c).2.2⟩
    rw [(h c).2.1, Cert.ReferenceIdeal.Read.val_main_v20_eq, a0, a1, a2, a3, a4]
    exact reference_result _ _ _ _ _ (fun e => Cert.Pre_finite_inputs.IndexDomain.nonneg_of_pre _ _ _ _ _ (hpre c) e)

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
